-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S1048576x64 .f32) (main_arg1 : IVec S64x64 32) (main_arg2 : FVec F S64 .f32) (main_arg3 : FVec F S64x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S1048576x64 : Shape := ⟨2, ![1048576, 64]⟩
abbrev S64x64 : Shape := ⟨2, ![64, 64]⟩
abbrev S64 : Shape := ⟨1, ![64]⟩
abbrev S16 : Shape := ⟨1, ![16]⟩
abbrev S_ : Shape := ⟨0, ![]⟩
abbrev S64x64x1 : Shape := ⟨3, ![64, 64, 1]⟩
abbrev S64x1 : Shape := ⟨2, ![64, 1]⟩
abbrev S16384x64 : Shape := ⟨2, ![16384, 64]⟩

abbrev nBuf : Space → Nat
  | .hbm => 20
  | .vmem => 5
  | .smem => 0
  | _ => 0

abbrev bufTy : (tb : Table) → Fin (tcTables nBuf tb) → BufTy
  | .hbm, ⟨0, _⟩ => ⟨S1048576x64, .f32⟩
  | .hbm, ⟨1, _⟩ => ⟨S64x64, .i32⟩
  | .hbm, ⟨2, _⟩ => ⟨S64, .f32⟩
  | .hbm, ⟨3, _⟩ => ⟨S64x64, .f32⟩
  | .hbm, ⟨4, _⟩ => ⟨S16, .f32⟩
  | .hbm, ⟨5, _⟩ => ⟨S_, .i32⟩
  | .hbm, ⟨6, _⟩ => ⟨S64x64, .i32⟩
  | .hbm, ⟨7, _⟩ => ⟨S64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S64x64, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S1048576x64, .f32⟩
  | .local _ .vmem, ⟨0, _⟩ => ⟨S16384x64, .f32⟩
  | .local _ .vmem, ⟨1, _⟩ => ⟨S16384x64, .f32⟩
  | .local _ .vmem, ⟨2, _⟩ => ⟨S64x64, .f32⟩
  | .local _ .vmem, ⟨3, _⟩ => ⟨S16384x64, .f32⟩
  | .local _ .vmem, ⟨4, _⟩ => ⟨S16384x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S64x64_S64x64_1_0 : S64x64.Transposes [1, 0] S64x64
  inb_S16384x64_S16384x64_0_0 : ∀ a, (![0, 0] : Fin 2 → Nat) a + S16384x64.size a ≤ S16384x64.size a
  h_S16384x64 : 0 < S16384x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S16_S64x64x1_S64x64_n_0_n_n_0_2_1_wf : GatherDims.WF S16 S64x64x1 S64x64 [] [0] [] [0] [] 2 ![1]
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1048576x64.size a
  hwx0_0 : ∀ i : grid0.Coords, EltTy.bits .f32 = 32 ∨ (Rect.block (s := S1048576x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S1048576x64.size a
  hwx0_2 : ∀ i : grid0.Coords, EltTy.bits .f32 = 32 ∨ (Rect.block (s := S1048576x64) S16384x64.size (cc0_transform_2 i) (hinb0_2 i)).WholeWords (EltTy.packing .f32)

variable [Facts₀]

def gather_S16_S64x64x1_S64x64_n_0_n_n_0_2_1 : GatherDims S16 S64x64x1 S64x64 where
  offsetDims := []
  collapsedSliceDims := [0]
  operandBatchingDims := []
  startIndicesBatchingDims := []
  startIndexMap := [0]
  indexVectorDim := 2
  sliceSizes := ![1]
  wf := gather_S16_S64x64x1_S64x64_n_0_n_n_0_2_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S64 : Shape := ⟨1, ![64]⟩
abbrev S16 : Shape := ⟨1, ![16]⟩
abbrev S_ : Shape := ⟨0, ![]⟩
abbrev S64x64x1 : Shape := ⟨3, ![64, 64, 1]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .i32⟩
  | .hbm, ⟨2, _⟩ => ⟨S64, .f32⟩
  | .hbm, ⟨3, _⟩ => ⟨S64x64, .f32⟩
  | .hbm, ⟨4, _⟩ => ⟨S16, .f32⟩
  | .hbm, ⟨5, _⟩ => ⟨S_, .i32⟩
  | .hbm, ⟨6, _⟩ => ⟨S64x64, .i32⟩
  | .hbm, ⟨7, _⟩ => ⟨S64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S64x64, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S1048576x64, .f32⟩
  | .hbm, ⟨19, _⟩ => ⟨S64x64, .f32⟩
  | .hbm, ⟨20, _⟩ => ⟨S1048576x64, .f32⟩
  | .hbm, ⟨21, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S64x64_S64x64_1_0 : S64x64.Transposes [1, 0] S64x64
  gather_S16_S64x64x1_S64x64_n_0_n_n_0_2_1_wf : GatherDims.WF S16 S64x64x1 S64x64 [] [0] [] [0] [] 2 ![1]
  dot_S1048576x64_S64x64_S1048576x64_1_0_0_1_n_n_wf : DotDims.WF S1048576x64 S64x64 S1048576x64 [1] [0] [0] [1] [] []

variable [Facts₀]

def gather_S16_S64x64x1_S64x64_n_0_n_n_0_2_1 : GatherDims S16 S64x64x1 S64x64 where
  offsetDims := []
  collapsedSliceDims := [0]
  operandBatchingDims := []
  startIndicesBatchingDims := []
  startIndexMap := [0]
  indexVectorDim := 2
  sliceSizes := ![1]
  wf := gather_S16_S64x64x1_S64x64_n_0_n_n_0_2_1_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf

class Facts : Prop extends Facts₀ where

variable [Facts]
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.FoldAlgebra.lean ====
/-
  Folding a low-rank adapter into a frozen weight, over the extended reals.

  A linear layer with weight `W + A` (both 64 x 64, a row per output feature) sends the row `x(r, ·)` to the
  entries  sum_k x(r,k) * (W(o,k) + A(o,k)).  Applying `W` and `A` apart and adding the two results gives
  sum_k x(r,k) * W(o,k) + sum_k x(r,k) * A(o,k).  Over the extended reals the two agree as soon as the entries of
  `x` and of `A` are real numbers: a real factor distributes over the sum of ANY extended real and a real, and a
  finite sum of extended reals splits termwise because addition there is commutative and associative.  Nothing is
  asked of `W`.

  The file also reads the product with a transposed sum of two matrices, and the sum of the host's two products
  with transposed matrices, entry by entry.
-/
import proofs.«111644_j10445360464556_1_alg».proof.Proof.LibRealFactor
import Idealize.ShloMosaic.Lib.ValueLayout
import Idealize.ShloMosaic.Lib.Pipeline.Value

noncomputable section

namespace Cert.Fold

open Idealize.ShloMosaic Idealize.ShloMosaic.ValueIdx

/-! ## The layer, folded and split -/

/-- The activations: 1048576 rows of 64 features. -/
abbrev Rows : Shape := ⟨2, ![1048576, 64]⟩
/-- A weight: 64 output features by 64 input features. -/
abbrev Sq : Shape := ⟨2, ![64, 64]⟩

/-- The rows of `x` times a matrix `wt` laid input feature by output feature. -/
def rowsTimes (x : Rows.Idx → EReal) (wt : Sq.Idx → EReal) : Rows.Idx → EReal :=
  fun i => ∑ k : Fin 64, x (ix2 (i 0) k) * wt (ix2 k (i 1))

/-- The layer with the adapter folded into the weight: entry (r, o) is sum_k x(r,k) (w(o,k) + a(o,k)). -/
def folded (x : Rows.Idx → EReal) (w a : Sq.Idx → EReal) : Rows.Idx → EReal :=
  fun i => ∑ k : Fin 64, x (ix2 (i 0) k) * (w (ix2 (i 1) k) + a (ix2 (i 1) k))

/-- The layer with base and adapter applied apart: entry (r, o) is sum_k x(r,k) w(o,k) + sum_k x(r,k) a(o,k). -/
def split (x : Rows.Idx → EReal) (w a : Sq.Idx → EReal) : Rows.Idx → EReal :=
  fun i => (∑ k : Fin 64, x (ix2 (i 0) k) * w (ix2 (i 1) k)) + ∑ k : Fin 64, x (ix2 (i 0) k) * a (ix2 (i 1) k)

/-- Every entry of the array is a real number. -/
def AllReal {S : Shape} (v : S.Idx → EReal) : Prop := ∀ i, ∃ r : ℝ, v i = (r : EReal)

/-- Folded and split agree when the activations and the adapter are real. -/
theorem folded_eq_split (x : Rows.Idx → EReal) (w a : Sq.Idx → EReal) (hx : AllReal x) (ha : AllReal a) :
    folded x w a = split x w a := by
  funext i
  exact sum_mul_add Finset.univ (fun k => x (ix2 (i 0) k)) (fun k => w (ix2 (i 1) k)) (fun k => a (ix2 (i 1) k))
    (fun k => hx _) (fun k => ha _)

/-- The rows of `x` times the transpose of `w + a` is the folded layer. -/
theorem rowsTimes_transpose_add (x : Rows.Idx → EReal) (w a : FVec Ideal Sq .f32) (h : Sq.Transposes [1, 0] Sq) :
    rowsTimes x (transpose Sq [1, 0] (addf w a) h) = folded x w a := by
  funext i
  obtain ⟨p, q, rfl⟩ : ∃ (p : Fin 1048576) (q : Fin 64), i = ix2 p q := ⟨i 0, i 1, eq_ix2 i⟩
  show (∑ k : Fin 64, x (ix2 p k) * transpose Sq [1, 0] (addf w a) h (ix2 k q))
    = ∑ k : Fin 64, x (ix2 p k) * (w (ix2 q k) + a (ix2 q k))
  refine Finset.sum_congr rfl fun k _ => ?_
  rw [transpose_ix2_apply, addf_apply]

/-- The host's product of `x` with the transpose of `w`, plus its product with the transpose of `a`, is the split
    layer. -/
theorem dots_eq_split (d : DotDims Rows Sq Rows)
    (h1 : d.lhsContracting = [1]) (h2 : d.rhsContracting = [0]) (h3 : d.lhsNonContracting = [0])
    (h4 : d.rhsNonContracting = [1]) (h5 : d.lhsBatch = []) (h6 : d.rhsBatch = [])
    (x : FVec Ideal Rows .f32) (w a : FVec Ideal Sq .f32) (h : Sq.Transposes [1, 0] Sq) :
    addf (Host.dotGeneral d none x (transpose Sq [1, 0] w h)) (Host.dotGeneral d none x (transpose Sq [1, 0] a h))
      = split x w a := by
  funext i
  obtain ⟨p, q, rfl⟩ : ∃ (p : Fin 1048576) (q : Fin 64), i = ix2 p q := ⟨i 0, i 1, eq_ix2 i⟩
  rw [addf_apply, dotGeneral_rows d h1 h2 h3 h4 h5 h6, dotGeneral_rows d h1 h2 h3 h4 h5 h6]
  show _ = (∑ k : Fin 64, x (ix2 p k) * w (ix2 q k)) + ∑ k : Fin 64, x (ix2 p k) * a (ix2 q k)
  congr 1
  · exact Finset.sum_congr rfl fun k _ => by rw [transpose_ix2_apply]
  · exact Finset.sum_congr rfl fun k _ => by rw [transpose_ix2_apply]

end Cert.Fold

end
-- ==== Proof.FiniteInputs.lean ====
/-
  What the precondition gives: every entry of the activations and of the adapter is a real number.

  The precondition is the conjunction of three tests, one per float input, each "all entries have absolute value
  below +inf".  An extended real whose absolute value max(x, -x) is below +inf is neither infinity, so it is a real.
  The conjunction is split bit by bit, each "all" is read at an entry, and the entry's test is that comparison.
-/
import proofs.«111644_j10445360464556_1_alg».proof.Proof.Gen.Pre_finite_inputs
import proofs.«111644_j10445360464556_1_alg».proof.Proof.FoldAlgebra
import Idealize.ShloMosaic.Lib.ReduceAll

noncomputable section

namespace Cert.Fold

open Idealize.ShloMosaic Idealize.ShloMosaic.ValueIdx

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +inf. -/
theorem ofBits_f32_inf : Ideal.ofBits .f32 0x7F800000#32 = ⊤ := by simp [Ideal.ofBits, Ideal.ieee]

/-- The finiteness test's bit at an entry, when it is 1, says the entry is real: it compares the entry's absolute
    value with the word of +inf. -/
theorem real_of_test {S : Shape} (a : FVec Ideal S .f32)
    (hb : (⟨0, ![]⟩ : Shape).BroadcastsInDim S (![] : Fin 0 → Fin S.rank)) (i : S.Idx)
    (h : cmpf .olt (Host.absf a) (broadcastInDim S ![] hb (constant (F := Ideal) ⟨0, ![]⟩ .f32 0x7F800000#32)) i = 1#1) :
    ∃ r : ℝ, a i = (r : EReal) := by
  refine real_of_abs_lt_top (a i) ?_
  have h' : Ideal.cmp .olt (max (a i) (-(a i))) (Ideal.ofBits .f32 0x7F800000#32) = 1#1 := h
  rw [ofBits_f32_inf] at h'
  by_contra hn
  have h0 : Ideal.cmp .olt (max (a i) (-(a i))) ⊤ = 0#1 := by
    show BitVec.ofBool (decide (max (a i) (-(a i)) < ⊤)) = 0#1
    rw [decide_eq_false hn]
    rfl
  rw [h0] at h'
  exact absurd h' (by decide)

/-- The scalar shape has one index. -/
instance subsingleton_scalar_idx : Subsingleton (⟨0, ![]⟩ : Shape).Idx := ⟨fun a b => funext fun d => d.elim0⟩

/-- Under the precondition the activations and the adapter are arrays of real numbers. -/
theorem reals_of_pre (x : FVec Ideal Rows .f32) (codes : IVec Sq 32) (absmax : FVec Ideal ⟨1, ![64]⟩ .f32)
    (a : FVec Ideal Sq .f32)
    (h : Cert.Pre_finite_inputs.fn (F := Ideal) x codes absmax a = fun _ => 1#1) : AllReal x ∧ AllReal a := by
  have h0 := congrFun h ix0
  dsimp only [Cert.Pre_finite_inputs.fn] at h0
  obtain ⟨h12, h3⟩ := IntOp.andi_eq_one.1 h0
  obtain ⟨h1, -⟩ := IntOp.andi_eq_one.1 h12
  exact ⟨fun i => real_of_test x _ i (Host.reduce_andi_all _ _ _ _ _ h1 i),
    fun i => real_of_test a _ i (Host.reduce_andi_all _ _ _ _ _ h3 i)⟩

end Cert.Fold

end
-- ==== Proof.KernelValue.lean ====
/-
  What the kernel's program leaves in its result array, at the exact instance.

  Before the launch the host builds the combined weight: the table of levels read at the codes, row b scaled by
  the b-th block's absolute maximum, plus the adapter, and the whole transposed (input feature by output feature).
  The launch has 64 grid points; point t loads rows 16384 t .. 16384 t + 16383 of the activations and the whole
  transposed weight, multiplies them on the matrix unit into a zero accumulator (the two narrowings to bf16 are the
  identity on extended reals), and stores the 16384 x 64 product as block t of the result.  Entry (p, q) of that
  product is sum_k block(p, k) * weight(k, q); block t of the activations at (p, k) is the array at (16384 t + p, k),
  so what point t writes is block t of ONE array, the rows of the activations times the transposed weight.  The 64
  blocks tile the result (row r lies in block r / 16384), so the result array is that product; read through the
  transpose and the sum it is the layer with the adapter folded into the weight.
-/
import proofs.«111644_j10445360464556_1_alg».proof.Proof.Gen.KernelIdeal.Value
import proofs.«111644_j10445360464556_1_alg».proof.Proof.FoldAlgebra
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Fold

/-! ## The host prefix -/

/-- The dequantized base weight as the host operations build it from the codes and the blocks' absolute maxima: the
    table of levels read at the codes (a negative code first wrapped by sixteen), row b scaled by the b-th maximum. -/
def baseWeight {F : FTy → Type} [FloatOps F] (codes : (⟨S64x64, .i32⟩ : BufTy).Contents (Elt F))
    (absmax : (⟨S64, .f32⟩ : BufTy).Contents (Elt F)) : (⟨S64x64, .f32⟩ : BufTy).Contents (Elt F) :=
  mulf (Host.gather gather_S16_S64x64x1_S64x64_n_0_n_n_0_2_1 (fun i => FloatOps.ofBits .f32 (lit0 (S16.rowMajor i)))
      (broadcastInDim S64x64x1 ![0, 1] bcast_S64x64_S64x64x1_0_1
        (select (cmpi .slt codes (broadcastInDim S64x64 ![] bcast_S_S64x64 (constantI S_ 32 0#32)))
          (addi codes (broadcastInDim S64x64 ![] bcast_S_S64x64 (constantI S_ 32 16#32))) codes)))
    (broadcastInDim S64x64 ![0, 1] bcast_S64x1_S64x64_0_1 (broadcastInDim S64x1 ![0] bcast_S64_S64x1_0 absmax))

variable (m : (ℓ : Loc nD τ sig) → Buf (Elt Ideal) ℓ) (ρ : Dev nD → PrngReg)

/-- The weight the region stages: the transpose of base weight plus adapter. -/
theorem staged_weight (c : Dev nD) :
    V m c main_v11
      = transpose S64x64 [1, 0] (addf (F := Ideal) (φ := .f32)
          (baseWeight (F := Ideal) (m ((c : Thread nD τ).loc main_arg1)) (m ((c : Thread nD τ).loc main_arg2)))
          (m ((c : Thread nD τ).loc main_arg3))) transposes_S64x64_S64x64_1_0 := by
  dsimp only [Gen.V, Gen.hostOps0]
  after_results
  rfl

/-! ## One grid point -/

/-- The body's product at an entry of the block: the sum over the 64 input features. -/
theorem product_apply (x0 : Vec Ideal S16384x64 .f32) (x1 : Vec Ideal S64x64 .f32) (p : Fin 16384) (q : Fin 64) :
    k0_pay1 (F := Ideal) x0 x1 (ix2 p q) = ∑ k : Fin 64, x0 (ix2 p k) * x1 (ix2 k q) := by
  unfold k0_pay1
  rw [shapeCast_self]
  exact matmul_zero_rows dot_S16384x64_S64x64_S16384x64_1_0_0_1_n_n rfl rfl rfl rfl rfl rfl none _ _ p q

/-- The same at any index of the block. -/
theorem product_at (x0 : Vec Ideal S16384x64 .f32) (x1 : Vec Ideal S64x64 .f32) (j : S16384x64.Idx) :
    k0_pay1 (F := Ideal) x0 x1 j = ∑ k : Fin 64, x0 (ix2 (j 0) k) * x1 (ix2 k (j 1)) := by
  obtain ⟨p, q, rfl⟩ : ∃ (p : Fin 16384) (q : Fin 64), j = ix2 p q := ⟨j 0, j 1, eq_ix2 j⟩
  exact product_apply x0 x1 p q

theorem zero_offsets : (![0, 0] : Fin 2 → Nat) = fun _ => 0 := funext fun a => by fin_cases a <;> rfl

/-- The block indices over the grid: the activations' and the result's block at point t is block t of the rows,
    the weight's is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the rows of the activations times the staged weight. -/
theorem flushed_eq (c : Dev nD) (t : Fin cfg0.N) :
    (dats m 0 c).flushed 2 t
      = ((cfg0.win 2).blk t).view.read (Elt Ideal) (rowsTimes (V m c main_arg0) (V m c main_v11)) := by
  rw [Value.flushed2]
  unfold out0_2
  rw [View.canon_unit_zero zero_offsets]
  simp only [View.ld_unit_zero (S := S16384x64) zero_offsets, View.ld_unit_zero (S := S64x64) zero_offsets]
  obtain ⟨e0, e1, e2, e3, e4, e5⟩ := block_indices t
  funext j
  show k0_pay1 (F := Ideal) (iblk m c 0 t) (iblk m c 1 t) j
    = rowsTimes (V m c main_arg0) (V m c main_v11) (((cfg0.win 2).blk t).view.emb j)
  refine (product_at (iblk m c 0 t) (iblk m c 1 t) j).trans ?_
  unfold rowsTimes
  beta_reduce
  refine Finset.sum_congr rfl fun k _ => ?_
  have hj0 : (j 0).val < 16384 := (j 0).isLt
  have hj1 : (j 1).val < 64 := (j 1).isLt
  have hk : k.val < 64 := k.isLt
  refine congrArg₂ (fun u v : EReal => u * v) ?_ ?_
  · show V m c main_arg0 (((cfg0.win 0).blk t).view.emb (ix2 (j 0) k)) = _
    refine congrArg (V m c main_arg0) ?_
    funext a; apply Fin.ext
    match a with
    | ⟨0, _⟩ =>
      show win0_0.index t (0 : Fin 2) * 16384 + 1 * (j 0).val = win0_2.index t (0 : Fin 2) * 16384 + 1 * (j 0).val
      omega
    | ⟨1, _⟩ =>
      show win0_0.index t (1 : Fin 2) * 64 + 1 * k.val = k.val
      omega
  · show V m c main_v11 (((cfg0.win 1).blk t).view.emb (ix2 k (j 1))) = _
    refine congrArg (V m c main_v11) ?_
    funext a; apply Fin.ext
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega

/-! ## The blocks tile the result -/

/-- An index of the result is in point t's block iff each coordinate is in the block's range on its axis. -/
theorem mem_block (t : Fin cfg0.N) (i : S1048576x64.Idx) :
    i ∈ ((cfg0.win 2).blk t).view.set ↔ ∀ a : Fin 2, win0_2.index t a * S16384x64.size a ≤ (i a).val
      ∧ (i a).val < win0_2.index t a * S16384x64.size a + S16384x64.size a := by
  show i ∈ ((View.whole main_v12).slice (win0_2.rect t)).set ↔ _
  rw [View.set_slice_whole, Rect.mem_set_unit]
  exact Iff.rfl

/-- Row r of the result lies in the block of point r / 16384. -/
theorem covered (i : S1048576x64.Idx) :
    ∃ t : Fin cfg0.N, (cfg0.win 2).flush t = true ∧ i ∈ ((cfg0.win 2).blk t).view.set := by
  have hi0 : (i 0).val < 1048576 := (i 0).isLt
  have hi1 : (i 1).val < 64 := (i 1).isLt
  have hlt : (i 0).val / 16384 < 64 := by omega
  obtain ⟨e0, e1, e2, e3, e4, e5⟩ := block_indices ⟨(i 0).val / 16384, hlt⟩
  refine ⟨⟨(i 0).val / 16384, hlt⟩, flush0_2 _, ?_⟩
  rw [mem_block]
  intro a
  match a with
  | ⟨0, _⟩ =>
    show win0_2.index ⟨(i 0).val / 16384, hlt⟩ (0 : Fin 2) * 16384 ≤ (i 0).val
      ∧ (i 0).val < win0_2.index ⟨(i 0).val / 16384, hlt⟩ (0 : Fin 2) * 16384 + 16384
    rw [e4]
    show (i 0).val / 16384 * 16384 ≤ (i 0).val ∧ (i 0).val < (i 0).val / 16384 * 16384 + 16384
    omega
  | ⟨1, _⟩ =>
    show win0_2.index ⟨(i 0).val / 16384, hlt⟩ (1 : Fin 2) * 64 ≤ (i 1).val
      ∧ (i 1).val < win0_2.index ⟨(i 0).val / 16384, hlt⟩ (1 : Fin 2) * 64 + 64
    rw [e5]
    omega

/-- The result array after the run is the rows of the activations times the staged weight. -/
theorem final (c : Dev nD) :
    (dats m 0 c).arrAt 2 cfg0.N = rowsTimes (V m c main_arg0) (V m c main_v11) :=
  (dats m 0 c).arrAt_eq_of_cover 2 _ (fun t _ => flushed_eq m c t) covered

/-! ## The run -/

/-- Every weakly fair execution of the kernel's program ends with the result at the layer with the adapter folded
    into the dequantized weight, and the four arguments unchanged. -/
theorem run : θ_run defs (onTc (τ := τ) (main (F := Ideal))) ⟨m, fun _ => 0, ρ⟩ fun r => ∀ c : Dev nD,
      r.2.mem ((c : Thread nD τ).loc main_v12)
        = folded (m ((c : Thread nD τ).loc main_arg0))
            (baseWeight (m ((c : Thread nD τ).loc main_arg1)) (m ((c : Thread nD τ).loc main_arg2)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      rw [V_main_arg0, staged_weight, rowsTimes_transpose_add])), (h c).2⟩)
    (Value.run_blocks m ρ)

end Cert.KernelIdeal.Layer

end
-- ==== Proof.RefRun.lean ====
/-
  The reference program run to its end. Its main function is eighteen host operations in a row: the sixteen-entry
  table of quantization levels, the codes with negative values wrapped by sixteen, the table read at the codes, the
  scaling of row b of the result by the b-th block's absolute maximum, and then the two matrix products of the
  activations, one with the transpose of that dequantized weight and one with the transpose of the adapter, added.
  Listed as data, the operations run one after another from any memory: every weakly fair execution ends, the
  result buffer holds the operations' composed term of the four arguments, and the arguments are as they were.
-/
import proofs.«111644_j10445360464556_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The main function's eighteen operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S64x64 ![] bcast_S_S64x64 : (⟨S_, .i32⟩ : BufTy).Contents (Elt F) → (⟨S64x64, .i32⟩ : BufTy).Contents (Elt F)),
    binary main_arg1 main_v0 main_v1 (cmpi .slt : (⟨S64x64, .i32⟩ : BufTy).Contents (Elt F) → (⟨S64x64, .i32⟩ : BufTy).Contents (Elt F) → (⟨S64x64, .i1⟩ : BufTy).Contents (Elt F)),
    nullary main_c_0 (constantI S_ 32 16#32),
    unary main_c_0 main_v2 (broadcastInDim S64x64 ![] bcast_S_S64x64 : (⟨S_, .i32⟩ : BufTy).Contents (Elt F) → (⟨S64x64, .i32⟩ : BufTy).Contents (Elt F)),
    binary main_arg1 main_v2 main_v3 (addi : (⟨S64x64, .i32⟩ : BufTy).Contents (Elt F) → (⟨S64x64, .i32⟩ : BufTy).Contents (Elt F) → (⟨S64x64, .i32⟩ : BufTy).Contents (Elt F)),
    ternary main_v1 main_v3 main_arg1 main_v4 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    unary main_v4 main_v5 (broadcastInDim S64x64x1 ![0, 1] bcast_S64x64_S64x64x1_0_1 : (⟨S64x64, .i32⟩ : BufTy).Contents (Elt F) → (⟨S64x64x1, .i32⟩ : BufTy).Contents (Elt F)),
    binary main_cst main_v5 main_v6 ((fun x i => Host.gather gather_S16_S64x64x1_S64x64_n_0_n_n_0_2_1 x i) : (⟨S16, .f32⟩ : BufTy).Contents (Elt F) → (⟨S64x64x1, .i32⟩ : BufTy).Contents (Elt F) → (⟨S64x64, .f32⟩ : BufTy).Contents (Elt F)),
    unary main_arg2 main_v7 (broadcastInDim S64x1 ![0] bcast_S64_S64x1_0 : (⟨S64, .f32⟩ : BufTy).Contents (Elt F) → (⟨S64x1, .f32⟩ : BufTy).Contents (Elt F)),
    unary main_v7 main_v8 (broadcastInDim S64x64 ![0, 1] bcast_S64x1_S64x64_0_1 : (⟨S64x1, .f32⟩ : BufTy).Contents (Elt F) → (⟨S64x64, .f32⟩ : BufTy).Contents (Elt F)),
    binary main_v6 main_v8 main_v9 (mulf : (⟨S64x64, .f32⟩ : BufTy).Contents (Elt F) → (⟨S64x64, .f32⟩ : BufTy).Contents (Elt F) → (⟨S64x64, .f32⟩ : BufTy).Contents (Elt F)),
    unary main_v9 main_v10 ((transpose S64x64 [1, 0] · transposes_S64x64_S64x64_1_0) : (⟨S64x64, .f32⟩ : BufTy).Contents (Elt F) → (⟨S64x64, .f32⟩ : BufTy).Contents (Elt F)),
    binary main_arg0 main_v10 main_v11 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg3 main_v12 ((transpose S64x64 [1, 0] · transposes_S64x64_S64x64_1_0) : (⟨S64x64, .f32⟩ : BufTy).Contents (Elt F) → (⟨S64x64, .f32⟩ : BufTy).Contents (Elt F)),
    binary main_arg0 main_v12 main_v13 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    binary main_v11 main_v13 main_v14 (addf : (⟨S1048576x64, .f32⟩ : BufTy).Contents (Elt F) → (⟨S1048576x64, .f32⟩ : BufTy).Contents (Elt F) → (⟨S1048576x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., binary_bufs_sub .., unary_bufs_sub .., binary_bufs_sub .., binary_bufs_sub ..⟩

/-- The dequantized base weight as the operations build it from the codes and the blocks' absolute maxima: the table
    of levels read at the codes (a negative code first wrapped by sixteen), row b scaled by the b-th maximum. -/
def baseWeight (codes : (⟨S64x64, .i32⟩ : BufTy).Contents (Elt F)) (absmax : (⟨S64, .f32⟩ : BufTy).Contents (Elt F)) :
    (⟨S64x64, .f32⟩ : BufTy).Contents (Elt F) :=
  mulf (Host.gather gather_S16_S64x64x1_S64x64_n_0_n_n_0_2_1 (fun i => FloatOps.ofBits .f32 (lit0 (S16.rowMajor i)))
      (broadcastInDim S64x64x1 ![0, 1] bcast_S64x64_S64x64x1_0_1
        (select (cmpi .slt codes (broadcastInDim S64x64 ![] bcast_S_S64x64 (constantI S_ 32 0#32)))
          (addi codes (broadcastInDim S64x64 ![] bcast_S_S64x64 (constantI S_ 32 16#32))) codes)))
    (broadcastInDim S64x64 ![0, 1] bcast_S64x1_S64x64_0_1 (broadcastInDim S64x1 ![0] bcast_S64_S64x1_0 absmax))

/-- From any memory with zero counters every weakly fair execution of the main function ends with the result buffer
    at the sum of the two products and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = addf
            (Host.dotGeneral dot_S1048576x64_S64x64_S1048576x64_1_0_0_1_n_n none (m ((c.tc : Thread nD τ).loc main_arg0))
              (transpose S64x64 [1, 0] (baseWeight (m ((c.tc : Thread nD τ).loc main_arg1)) (m ((c.tc : Thread nD τ).loc main_arg2))) transposes_S64x64_S64x64_1_0))
            (Host.dotGeneral dot_S1048576x64_S64x64_S1048576x64_1_0_0_1_n_n none (m ((c.tc : Thread nD τ).loc main_arg0))
              (transpose S64x64 [1, 0] (m ((c.tc : Thread nD τ).loc main_arg3)) transposes_S64x64_S64x64_1_0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.RefRun

end
-- ==== Proof.RefValue.lean ====
/-
  What the reference program leaves in its result array, at the exact instance: the host's two matrix products of
  the activations, one with the transposed dequantized weight and one with the transposed adapter, read entry by
  entry as sums over the 64 input features and added — the layer with base and adapter applied apart.
-/
import proofs.«111644_j10445360464556_1_alg».proof.Proof.RefRun
import proofs.«111644_j10445360464556_1_alg».proof.Proof.FoldAlgebra

noncomputable section

namespace Cert.ReferenceIdeal.Layer

open Cert.ReferenceIdeal Cert.ReferenceIdeal.Gen Idealize.ShloMosaic Idealize.ShloMosaic.TcCoe Idealize.SL.Sem
open Cert.Fold

/-- Every weakly fair execution of the reference program ends with the result at the split layer of the
    arguments, and the four arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = split (m ((c.tc : Thread nD τ).loc main_arg0))
            (RefRun.baseWeight (F := Ideal) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans
      (dots_eq_split dot_S1048576x64_S64x64_S1048576x64_1_0_0_1_n_n rfl rfl rfl rfl rfl rfl _ _ _ _), (h c).2⟩)
    (RefRun.run (F := Ideal) m ρ)

end Cert.ReferenceIdeal.Layer

end
-- ==== Proof.lean ====
/-
  A linear layer whose frozen weight is stored as four-bit codes with one scale per block of 64, plus a trained
  adapter: the kernel dequantizes the weight, ADDS the adapter to it, and multiplies the activations by the one
  combined matrix on the matrix unit, 16384 rows per grid point; the reference multiplies the activations by the
  dequantized weight and by the adapter apart and adds the two products.

  Over the extended reals both results are, at entry (r, o), sums over the 64 input features k:
      kernel      sum_k x(r,k) * (W(o,k) + A(o,k))
      reference   sum_k x(r,k) * W(o,k)  +  sum_k x(r,k) * A(o,k)
  with the same dequantized weight W, built by the same host operations from the same table of levels.  They agree
  because the precondition makes every x(r,k) and A(o,k) a real number, and a real factor distributes over the sum of
  any extended real and a real (Proof/FoldAlgebra.lean); W may hold anything.

  The frames of the two kernel programs are the launch's certificates; the reference has no kernel, and its frame
  is its run with the result dropped.  The idealization rewrote nothing, so there is nothing to preserve.
-/
import proofs.«111644_j10445360464556_1_alg».proof.Defs
import proofs.«111644_j10445360464556_1_alg».proof.Proof.Gen.Kernel
import proofs.«111644_j10445360464556_1_alg».proof.Proof.Gen.Kernel.Skeleton
import proofs.«111644_j10445360464556_1_alg».proof.Proof.Gen.Kernel.Launch
import proofs.«111644_j10445360464556_1_alg».proof.Proof.Gen.Kernel.Points
import proofs.«111644_j10445360464556_1_alg».proof.Proof.Gen.Kernel.Frame
import proofs.«111644_j10445360464556_1_alg».proof.Proof.Gen.KernelIdeal
import proofs.«111644_j10445360464556_1_alg».proof.Proof.Gen.KernelIdeal.Skeleton
import proofs.«111644_j10445360464556_1_alg».proof.Proof.Gen.KernelIdeal.Launch
import proofs.«111644_j10445360464556_1_alg».proof.Proof.Gen.KernelIdeal.Points
import proofs.«111644_j10445360464556_1_alg».proof.Proof.Gen.KernelIdeal.Frame
import proofs.«111644_j10445360464556_1_alg».proof.Proof.Gen.KernelIdeal.Value
import proofs.«111644_j10445360464556_1_alg».proof.Proof.Gen.ReferenceIdeal
import proofs.«111644_j10445360464556_1_alg».proof.Proof.Gen.Pre_finite_inputs
import proofs.«111644_j10445360464556_1_alg».proof.Proof.FoldAlgebra
import proofs.«111644_j10445360464556_1_alg».proof.Proof.FiniteInputs
import proofs.«111644_j10445360464556_1_alg».proof.Proof.KernelValue
import proofs.«111644_j10445360464556_1_alg».proof.Proof.RefRun
import proofs.«111644_j10445360464556_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The two programs dequantize the weight by the same operations on the same table. -/
theorem baseWeight_eq (codes : Cert.Fold.Sq.Idx → BitVec 32) (absmax : (⟨1, ![64]⟩ : Shape).Idx → EReal) :
    Cert.ReferenceIdeal.RefRun.baseWeight (F := Ideal) codes absmax = Cert.KernelIdeal.Layer.baseWeight codes absmax := rfl

/-- Both programs end at the split layer of the arguments: the kernel's folded layer is the split one because the
    precondition makes the activations and the adapter real. -/
theorem algebraic : Cert.algebraic_KernelIdeal_ReferenceIdeal := by
  intro m ρ m' ρ' hpre hagree
  refine ⟨fun c => Cert.Fold.split (m ((c.tc : Thread Cert.KernelIdeal.nD Cert.KernelIdeal.τ).loc Cert.KernelIdeal.main_arg0))
      (Cert.KernelIdeal.Layer.baseWeight (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Layer.run m ρ)
    obtain ⟨hx, ha⟩ := Cert.Fold.reals_of_pre _ _ _ _ (hpre c)
    exact Cert.Fold.folded_eq_split _ _ _ hx ha
  · refine (θ_run Cert.ReferenceIdeal.defs _ _).mono (fun r h c => ⟨(h c).1.trans ?_, (h c).2⟩)
      (Cert.ReferenceIdeal.Layer.run m' ρ')
    rw [(hagree c).1, (hagree c).2.1, (hagree c).2.2.1, (hagree c).2.2.2, baseWeight_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
